-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x64 : Shape := ⟨2, ![64, 64]⟩
abbrev S1 : Shape := ⟨1, ![1]⟩
abbrev S64 : Shape := ⟨1, ![64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S1048576x64 .f32) (main_arg1 : FVec F S64x64 .f32) (main_arg2 : FVec F S1 .f32) (main_arg3 : FVec F S64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S1048576x64 : Shape := ⟨2, ![1048576, 64]⟩
abbrev S64x64 : Shape := ⟨2, ![64, 64]⟩
abbrev S1 : Shape := ⟨1, ![1]⟩
abbrev S64 : Shape := ⟨1, ![64]⟩
abbrev S_ : Shape := ⟨0, ![]⟩
abbrev S1x64 : Shape := ⟨2, ![1, 64]⟩
abbrev S1x1 : Shape := ⟨2, ![1, 1]⟩
abbrev S8192x64 : Shape := ⟨2, ![8192, 64]⟩
abbrev S8192 : Shape := ⟨1, ![8192]⟩
abbrev S8192x1 : Shape := ⟨2, ![8192, 1]⟩

abbrev nBuf : Space → Nat
  | .hbm => 43
  | .vmem => 7
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S1, .f32⟩
  | .hbm, ⟨3, _⟩ => ⟨S64, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S1, .f32⟩
  | .hbm, ⟨15, _⟩ => ⟨S1, .f32⟩
  | .hbm, ⟨16, _⟩ => ⟨S64, .f32⟩
  | .hbm, ⟨17, _⟩ => ⟨S64, .f32⟩
  | .hbm, ⟨18, _⟩ => ⟨S1, .f32⟩
  | .hbm, ⟨19, _⟩ => ⟨S_, .f32⟩
  | .hbm, ⟨20, _⟩ => ⟨S1, .f32⟩
  | .hbm, ⟨21, _⟩ => ⟨S1, .f32⟩
  | .hbm, ⟨22, _⟩ => ⟨S64x64, .f32⟩
  | .hbm, ⟨23, _⟩ => ⟨S_, .f32⟩
  | .hbm, ⟨24, _⟩ => ⟨S64, .f32⟩
  | .hbm, ⟨25, _⟩ => ⟨S_, .f32⟩
  | .hbm, ⟨26, _⟩ => ⟨S1, .f32⟩
  | .hbm, ⟨27, _⟩ => ⟨S1, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S1x64, .f32⟩
  | .hbm, ⟨41, _⟩ => ⟨S1x1, .f32⟩
  | .hbm, ⟨42, _⟩ => ⟨S1048576x64, .f32⟩
  | .local _ .vmem, ⟨0, _⟩ => ⟨S8192x64, .f32⟩
  | .local _ .vmem, ⟨1, _⟩ => ⟨S8192x64, .f32⟩
  | .local _ .vmem, ⟨2, _⟩ => ⟨S64x64, .f32⟩
  | .local _ .vmem, ⟨3, _⟩ => ⟨S1x64, .f32⟩
  | .local _ .vmem, ⟨4, _⟩ => ⟨S1x1, .f32⟩
  | .local _ .vmem, ⟨5, _⟩ => ⟨S8192x64, .f32⟩
  | .local _ .vmem, ⟨6, _⟩ => ⟨S8192x64, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_cst_1 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_3 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S64_S_d0 : S64.ReducesTo [0] S_
  h_S_ : 0 < S_.numel
  bcast_S_S1 : S_.BroadcastsInDim S1 (![] : Fin 0 → Fin S1.rank)
  bcast_S1_S64_0 : S1.BroadcastsInDim S64 (![0] : Fin 1 → Fin S64.rank)
  reducesTo_S64x64_S64_d1 : S64x64.ReducesTo [1] S64
  shapeCasts_S1_S_ : S1.ShapeCasts S_
  bcast_S_S64 : S_.BroadcastsInDim S64 (![] : Fin 0 → Fin S64.rank)
  shapeCasts_S64_S1x64 : S64.ShapeCasts S1x64
  shapeCasts_S1_S1x1 : S1.ShapeCasts S1x1
  inb_S8192x64_S8192x64_0_0 : ∀ a, (![0, 0] : Fin 2 → Nat) a + S8192x64.size a ≤ S8192x64.size a
  h_S8192x64 : 0 < S8192x64.numel
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  transposes_S64x64_p1_0_S64x64 : S64x64.Transposes [1, 0] S64x64
  reduces_S8192x64_S8192 : S8192x64.Reduces [1] S8192
  shapeCasts_S8192_S8192x1 : S8192.ShapeCasts S8192x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x1_S8192x1 : S1x1.Broadcasts S8192x1
  broadcasts_S1x64_S8192x64 : S1x64.Broadcasts S8192x64
  broadcasts_S8192x1_S8192x64 : S8192x1.Broadcasts S8192x64
  broadcasts_S1x1_S8192x64 : S1x1.Broadcasts S8192x64
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S1048576x64.size a
  hwx0_0 : ∀ i : grid0.Coords, EltTy.bits .f32 = 32 ∨ (Rect.block (s := S1048576x64) S8192x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x64.size a ≤ S1048576x64.size a
  hwx0_4 : ∀ i : grid0.Coords, EltTy.bits .f32 = 32 ∨ (Rect.block (s := S1048576x64) S8192x64.size (cc0_transform_4 i) (hinb0_4 i)).WholeWords (EltTy.packing .f32)

variable [Facts₀]

def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_arg0) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S8192x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x64 : Shape := ⟨2, ![64, 64]⟩
abbrev S1 : Shape := ⟨1, ![1]⟩
abbrev S64 : Shape := ⟨1, ![64]⟩
abbrev S_ : Shape := ⟨0, ![]⟩
abbrev S1048576 : Shape := ⟨1, ![1048576]⟩
abbrev S1048576x1 : Shape := ⟨2, ![1048576, 1]⟩
abbrev S1x64 : Shape := ⟨2, ![1, 64]⟩
abbrev S1x1 : Shape := ⟨2, ![1, 1]⟩

abbrev nBuf : Space → Nat
  | .hbm => 50
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x64, .f32⟩
  | .hbm, ⟨2, _⟩ => ⟨S1, .f32⟩
  | .hbm, ⟨3, _⟩ => ⟨S64, .f32⟩
  | .hbm, ⟨4, _⟩ => ⟨S1048576x64, .f32⟩
  | .hbm, ⟨5, _⟩ => ⟨S_, .f32⟩
  | .hbm, ⟨6, _⟩ => ⟨S1048576, .f32⟩
  | .hbm, ⟨7, _⟩ => ⟨S1048576x1, .f32⟩
  | .hbm, ⟨8, _⟩ => ⟨S64x64, .f32⟩
  | .hbm, ⟨9, _⟩ => ⟨S_, .f32⟩
  | .hbm, ⟨10, _⟩ => ⟨S64, .f32⟩
  | .hbm, ⟨11, _⟩ => ⟨S1048576x64, .f32⟩
  | .hbm, ⟨12, _⟩ => ⟨S_, .f32⟩
  | .hbm, ⟨13, _⟩ => ⟨S1048576x64, .f32⟩
  | .hbm, ⟨14, _⟩ => ⟨S1048576x64, .f32⟩
  | .hbm, ⟨15, _⟩ => ⟨S1048576x64, .f32⟩
  | .hbm, ⟨16, _⟩ => ⟨S1048576x64, .f32⟩
  | .hbm, ⟨17, _⟩ => ⟨S1x64, .f32⟩
  | .hbm, ⟨18, _⟩ => ⟨S1048576x64, .f32⟩
  | .hbm, ⟨19, _⟩ => ⟨S1048576x64, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S64, .f32⟩
  | .hbm, ⟨30, _⟩ => ⟨S64, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S1, .f32⟩
  | .hbm, ⟨36, _⟩ => ⟨S64, .f32⟩
  | .hbm, ⟨37, _⟩ => ⟨S64, .f32⟩
  | .hbm, ⟨38, _⟩ => ⟨S1x64, .f32⟩
  | .hbm, ⟨39, _⟩ => ⟨S1x1, .f32⟩
  | .hbm, ⟨40, _⟩ => ⟨S1048576x64, .f32⟩
  | .hbm, ⟨41, _⟩ => ⟨S1048576x64, .f32⟩
  | .hbm, ⟨42, _⟩ => ⟨S1x1, .f32⟩
  | .hbm, ⟨43, _⟩ => ⟨S1048576x64, .f32⟩
  | .hbm, ⟨44, _⟩ => ⟨S1048576x64, .f32⟩
  | .hbm, ⟨45, _⟩ => ⟨S_, .f32⟩
  | .hbm, ⟨46, _⟩ => ⟨S1048576x64, .f32⟩
  | .hbm, ⟨47, _⟩ => ⟨S1048576x64, .f32⟩
  | .hbm, ⟨48, _⟩ => ⟨S1048576x64, .f32⟩
  | .hbm, ⟨49, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S1048576_S1048576x1_0 : S1048576.BroadcastsInDim S1048576x1 (![0] : Fin 1 → Fin S1048576x1.rank)
  reducesTo_S64x64_S64_d1 : S64x64.ReducesTo [1] S64
  bcast_S_S1048576x64 : S_.BroadcastsInDim S1048576x64 (![] : Fin 0 → Fin S1048576x64.rank)
  bcast_S1048576x1_S1048576x64_0_1 : S1048576x1.BroadcastsInDim S1048576x64 (![0, 1] : Fin 2 → Fin S1048576x64.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1 : S_.BroadcastsInDim S1 (![] : Fin 0 → Fin S1.rank)
  reducesTo_S64_S_d0 : S64.ReducesTo [0] S_
  bcast_S1_S64_0 : S1.BroadcastsInDim S64 (![0] : Fin 1 → Fin S64.rank)
  bcast_S1_S1x1_1 : S1.BroadcastsInDim S1x1 (![1] : Fin 1 → Fin S1x1.rank)
  bcast_S1x1_S1048576x64_0_1 : S1x1.BroadcastsInDim S1048576x64 (![0, 1] : Fin 2 → Fin S1048576x64.rank)
  dot_S1048576x64_S64x64_S1048576x64_1_1_0_0_n_n_wf : DotDims.WF S1048576x64 S64x64 S1048576x64 [1] [1] [0] [0] [] []

variable [Facts₀]

def dot_S1048576x64_S64x64_S1048576x64_1_1_0_0_n_n : DotDims S1048576x64 S64x64 S1048576x64 where
  lhsContracting := [1]
  rhsContracting := [1]
  lhsNonContracting := [0]
  rhsNonContracting := [0]
  lhsBatch := []
  rhsBatch := []
  wf := dot_S1048576x64_S64x64_S1048576x64_1_1_0_0_n_n_wf

class Facts : Prop extends Facts₀ where

variable [Facts]
-- ==== Proof.KernelAt.lean ====
/-
  The kernel body's one store, read at one element `(r, q)` of the 8192 × 64 block: the offset of
  column `q`, plus `(-1/2 · v) · ‖z_r‖²`, plus `v · ⟨z_r, μ_q⟩`, where `v` is the 1 × 1 block holding the
  inverse variance. The row's squared norm is a lane sum over the 64 features, the inner product the
  matrix unit's contraction of the row block with the transposed means into a zero accumulator; the
  changes of float format are the identity on the extended reals.
-/
import proofs.«177680_j26371099197590_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Lda.Ker

open Cert.KernelIdeal Cert.KernelIdeal.Gen Idealize.ShloMosaic Idealize.ShloMosaic.ValueIdx

/-! ## The layout operations of the body, each read at an index -/

/-- A column `[a, 1]` broadcast along the lanes to `[a, b]` reads, at `(r, q)`, the column at `r`. -/
theorem bcast_col {a b : ℕ} {α : Type} (v : (⟨2, ![a, 1]⟩ : Shape).Idx → α) (h : (⟨2, ![a, 1]⟩ : Shape).Broadcasts ⟨2, ![a, b]⟩)
    (r : Fin a) (q : Fin b) : broadcastTo ⟨2, ![a, b]⟩ v h (ix2 r q) = v (ix2 r (0 : Fin 1)) := by
  refine broadcastTo_apply v h (ix2 r q) (ix2 r (0 : Fin 1)) fun ax => ?_
  match ax with
  | ⟨0, _⟩ =>
    show r.val = if a = 1 then 0 else r.val
    split
    · have := r.isLt; omega
    · rfl
  | ⟨1, _⟩ => rfl

/-- A `[1, 1]` value broadcast to `[a, b]` reads its one entry everywhere. -/
theorem bcast_one {a b : ℕ} {α : Type} (v : (⟨2, ![1, 1]⟩ : Shape).Idx → α) (h : (⟨2, ![1, 1]⟩ : Shape).Broadcasts ⟨2, ![a, b]⟩)
    (r : Fin a) (q : Fin b) : broadcastTo ⟨2, ![a, b]⟩ v h (ix2 r q) = v (ix2 (0 : Fin 1) (0 : Fin 1)) := by
  refine broadcastTo_apply v h (ix2 r q) (ix2 (0 : Fin 1) (0 : Fin 1)) fun ax => ?_
  match ax with
  | ⟨0, _⟩ => rfl
  | ⟨1, _⟩ => rfl

/-- A vector `[a]` cast to the column `[a, 1]` reads, at `(r, 0)`, the vector at `r`. -/
theorem cast_col {a : ℕ} {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-! ## The row's squared norm -/

/-- The lane sum of a block over its 64 features, at row `r`. -/
theorem lane_sum (x : FVec Ideal S8192x64 .f32) (h : S8192x64.Reduces [1] S8192) (hφ : FKind.Formats .f32)
    (hacc : (0x00000000#32 : BitVec 32) = 0x00000000#32) (r : Fin 8192) :
    multiReduction (F := Ideal) .add [1] S8192 x 0x00000000#32 h hφ hacc (ix1 r) = ∑ k : Fin 64, x (ix2 r k) := by
  refine (Ideal.multiReduction_add_single x 0x00000000#32 h hφ hacc (ix1 r)).trans ?_
  refine Finset.sum_congr rfl fun k _ => congrArg x ?_
  exact funext fun a => Fin.ext (by match a with | ⟨0, _⟩ => rfl | ⟨1, _⟩ => rfl)

/-! ## The inner product with a mean -/

theorem lhs_axis0 (i : S8192x64.Idx) (c : dot_S8192x64_S64x64_S8192x64_1_0_0_1_n_n.contr.Idx) :
    (dot_S8192x64_S64x64_S8192x64_1_0_0_1_n_n.lhsIdx i c 0).val = (i 0).val := by
  unfold DotDims.lhsIdx
  rw [dif_neg (show ¬(0 : Fin S8192x64.rank) ∈ dot_S8192x64_S64x64_S8192x64_1_0_0_1_n_n.lhsBatch by decide), dif_pos (show (0 : Fin S8192x64.rank) ∈ dot_S8192x64_S64x64_S8192x64_1_0_0_1_n_n.lhsNonContracting by decide)]
  rfl
theorem lhs_axis1 (i : S8192x64.Idx) (c : dot_S8192x64_S64x64_S8192x64_1_0_0_1_n_n.contr.Idx) :
    (dot_S8192x64_S64x64_S8192x64_1_0_0_1_n_n.lhsIdx i c 1).val = (c ⟨0, by decide⟩).val :=
  dot_S8192x64_S64x64_S8192x64_1_0_0_1_n_n.lhsIdx_val_of_single rfl i c
theorem rhs_axis0 (i : S8192x64.Idx) (c : dot_S8192x64_S64x64_S8192x64_1_0_0_1_n_n.contr.Idx) :
    (dot_S8192x64_S64x64_S8192x64_1_0_0_1_n_n.rhsIdx i c 0).val = (c ⟨0, by decide⟩).val :=
  dot_S8192x64_S64x64_S8192x64_1_0_0_1_n_n.rhsIdx_val_of_single rfl i c
theorem rhs_axis1 (i : S8192x64.Idx) (c : dot_S8192x64_S64x64_S8192x64_1_0_0_1_n_n.contr.Idx) :
    (dot_S8192x64_S64x64_S8192x64_1_0_0_1_n_n.rhsIdx i c 1).val = (i 1).val := by
  unfold DotDims.rhsIdx
  rw [dif_neg (show ¬(1 : Fin S64x64.rank) ∈ dot_S8192x64_S64x64_S8192x64_1_0_0_1_n_n.rhsBatch by decide), dif_pos (show (1 : Fin S64x64.rank) ∈ dot_S8192x64_S64x64_S8192x64_1_0_0_1_n_n.rhsNonContracting by decide)]
  rfl

/-- The matrix unit's product of a row block with a `[64, 64]` right operand into a zero accumulator, at `(r, q)`:
    the sum over the contracted feature `k` of the block at `(r, k)` times the operand at `(k, q)`. -/
theorem mxu_at (l : FVec Ideal S8192x64 .bf16) (w : FVec Ideal S64x64 .bf16) (r : Fin 8192) (q : Fin 64) :
    matmul (F := Ideal) dot_S8192x64_S64x64_S8192x64_1_0_0_1_n_n none l w (constant S8192x64 .f32 0x00000000#32) (ix2 r q)
      = ∑ k : Fin 64, l (ix2 r k) * w (ix2 k q) := by
  simp only [matmul]
  rw [Ideal.matmul_constant_zero_apply, ← Equiv.sum_comp (ValueIdx.contrEquiv1 dot_S8192x64_S64x64_S8192x64_1_0_0_1_n_n 64 rfl rfl).symm]
  refine Finset.sum_congr rfl fun k _ => ?_
  have hk := ValueIdx.contrEquiv1_symm_val dot_S8192x64_S64x64_S8192x64_1_0_0_1_n_n 64 rfl rfl k
  have el : dot_S8192x64_S64x64_S8192x64_1_0_0_1_n_n.lhsIdx (ix2 r q) ((ValueIdx.contrEquiv1 dot_S8192x64_S64x64_S8192x64_1_0_0_1_n_n 64 rfl rfl).symm k) = ix2 r k := funext fun a => Fin.ext (by
    match a with
    | ⟨0, _⟩ => exact lhs_axis0 _ _
    | ⟨1, _⟩ => exact (lhs_axis1 _ _).trans hk)
  have er : dot_S8192x64_S64x64_S8192x64_1_0_0_1_n_n.rhsIdx (ix2 r q) ((ValueIdx.contrEquiv1 dot_S8192x64_S64x64_S8192x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The transposed means read, at `(k, q)`, the means at `(q, k)`. -/
theorem mean_T (w : FVec Ideal S64x64 .bf16) (k q : Fin 64) :
    transpose S64x64 [1, 0] w transposes_S64x64_p1_0_S64x64 (ix2 k q) = w (ix2 q k) :=
  transpose_ix2_apply w transposes_S64x64_p1_0_S64x64 k q

/-! ## The store's value -/

/-- The body's store at `(r, q)`, from the four loaded blocks: the row block `z`, the means `μ`, the `1 × 1`
    inverse variance `v` and the `1 × 64` offsets `o`. -/
theorem pay_at (z : Vec Ideal S8192x64 .f32) (μ : Vec Ideal S64x64 .f32) (v : Vec Ideal S1x1 .f32) (o : Vec Ideal S1x64 .f32)
    (r : Fin 8192) (q : Fin 64) :
    k0_pay1 (F := Ideal) z μ v o (ix2 r q)
      = (o (ix2 (0 : Fin 1) q)
          + (Ideal.ofBits .f32 0xBF000000#32 * v (ix2 (0 : Fin 1) (0 : Fin 1))) * ∑ k : Fin 64, z (ix2 r k) * z (ix2 r k))
        + v (ix2 (0 : Fin 1) (0 : Fin 1)) * ∑ k : Fin 64, z (ix2 r k) * μ (ix2 q k) := by
  unfold k0_pay1
  dsimp only
  rw [addf_apply, addf_apply, mulf_apply]
  rw [broadcastTo_1b_ab_apply, shapeCast_self, bcast_col, mulf_apply, broadcastTo_1b_ab_apply, mulf_apply, broadcast_apply,
    shapeCast_self, cast_col, lane_sum, bcast_one, mxu_at]
  simp only [mulf_apply, truncf_apply, Ideal.ofBits_def]
  refine congrArg₂ (· + ·) rfl (congrArg (v (ix2 (0 : Fin 1) (0 : Fin 1)) * ·) (Finset.sum_congr rfl fun k _ => congrArg (z (ix2 r k) * ·) ?_))
  exact mean_T (truncf .bf16 μ bitsLt_bf16_f32) k q

end Cert.Lda.Ker

end
-- ==== Proof.KernelArr.lean ====
/-
  From the blocks to the array. Grid point `t` of 128 works on rows `8192 t … 8192 t + 8191`: it reads
  that row block of `z`, the whole of the means, of the offsets and of the inverse variance (their
  block index is always zero), and writes the same row block of the result. So every point writes the
  block of ONE function of the four operand arrays (`cell` below, element by element), the 128 row
  blocks cover the result, and the result array ends holding that function.
-/
import proofs.«177680_j26371099197590_1_alg».proof.Proof.Gen.KernelIdeal.Value
import proofs.«177680_j26371099197590_1_alg».proof.Proof.KernelAt

noncomputable section

namespace Cert.Lda.Ker

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The kernel's result at row `p` and class `q`, from the four operand arrays. -/
def cell (z : S1048576x64.Idx → EReal) (μ : S64x64.Idx → EReal) (o : S1x64.Idx → EReal) (v : S1x1.Idx → EReal)
    (p : Fin 1048576) (q : Fin 64) : EReal :=
  (o (ix2 (0 : Fin 1) q)
      + (Ideal.ofBits .f32 0xBF000000#32 * v (ix2 (0 : Fin 1) (0 : Fin 1))) * ∑ k : Fin 64, z (ix2 p k) * z (ix2 p k))
    + v (ix2 (0 : Fin 1) (0 : Fin 1)) * ∑ k : Fin 64, z (ix2 p k) * μ (ix2 q k)

/-- The result array as one function of the operand arrays. -/
def arr (z : S1048576x64.Idx → EReal) (μ : S64x64.Idx → EReal) (o : S1x64.Idx → EReal) (v : S1x1.Idx → EReal) :
    S1048576x64.Idx → EReal :=
  fun i => cell z μ o v (i 0) (i 1)

/-- The store at a block index, without naming its coordinates. -/
theorem pay_at_idx (z : Vec Ideal S8192x64 .f32) (μ : Vec Ideal S64x64 .f32) (v : Vec Ideal S1x1 .f32) (o : Vec Ideal S1x64 .f32)
    (j : S8192x64.Idx) :
    k0_pay1 (F := Ideal) z μ v o j
      = (o (ix2 (0 : Fin 1) (j 1))
          + (Ideal.ofBits .f32 0xBF000000#32 * v (ix2 (0 : Fin 1) (0 : Fin 1))) * ∑ k : Fin 64, z (ix2 (j 0) k) * z (ix2 (j 0) k))
        + v (ix2 (0 : Fin 1) (0 : Fin 1)) * ∑ k : Fin 64, z (ix2 (j 0) k) * μ (ix2 (j 1) k) := by
  exact (congrArg (k0_pay1 (F := Ideal) z μ v o) (eq_ix2 j)).trans (pay_at z μ v o (j 0) (j 1))

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the row block of `z` and of the result is the point's own,
    every other block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT POINT `t` WRITES BACK is block `t` of `arr` of the operand arrays as the launch finds them. -/
theorem flushed_eq (c : Dev nD) (t : Fin cfg0.N) :
    (dats m 0 c).flushed 4 t
      = ((cfg0.win 4).blk t).view.read (Elt Ideal) (arr (V m c main_arg0) (V m c main_arg1) (V m c main_v18) (V m c main_v19)) := by
  rw [flushed4]
  unfold out0_4
  rw [View.canon_unit_zero zero_offsets]
  simp only [View.ld_unit_zero (S := S8192x64) zero_offsets, View.ld_unit_zero (S := S64x64) zero_offsets,
    View.ld_unit_zero (S := S1x64) zero_offsets, View.ld_unit_zero (S := S1x1) zero_offsets]
  obtain ⟨e00, e01, e10, e11, e20, e21, e30, e31, e40, e41⟩ := block_indices t
  have hN : t.val < 128 := by have h1 := t.isLt; have h2 : cfg0.N = 128 := N_0; omega
  funext j
  have hj0 : (j 0).val < 8192 := (j 0).isLt
  have hj1 : (j 1).val < 64 := (j 1).isLt
  refine (pay_at_idx (iblk m c 0 t) (iblk m c 1 t) (iblk m c 3 t) (iblk m c 2 t) j).trans ?_
  show _ = arr (V m c main_arg0) (V m c main_arg1) (V m c main_v18) (V m c main_v19) (((cfg0.win 4).blk t).view.emb j)
  let P : Fin 1048576 := ⟨t.val * 8192 + (j 0).val, by omega⟩
  let Q : Fin 64 := ⟨(j 1).val, hj1⟩
  have hout : ((cfg0.win 4).blk t).view.emb j = ix2 P Q := by
    funext a; apply Fin.ext
    match a with
    | ⟨0, _⟩ => show win0_4.index t (0 : Fin 2) * 8192 + 1 * (j 0).val = t.val * 8192 + (j 0).val; omega
    | ⟨1, _⟩ => show win0_4.index t (1 : Fin 2) * 64 + 1 * (j 1).val = (j 1).val; omega
  rw [hout]
  show _ = cell (V m c main_arg0) (V m c main_arg1) (V m c main_v18) (V m c main_v19) P Q
  unfold cell
  have hz : ∀ k : Fin 64, iblk m c 0 t (ix2 (j 0) k) = V m c main_arg0 (ix2 P k) := fun k => by
    show V m c main_arg0 (((cfg0.win 0).blk t).view.emb (ix2 (j 0) k)) = _
    refine congrArg (V m c main_arg0) (funext fun a => Fin.ext ?_)
    match a with
    | ⟨0, _⟩ => show win0_0.index t (0 : Fin 2) * 8192 + 1 * (j 0).val = t.val * 8192 + (j 0).val; omega
    | ⟨1, _⟩ => show win0_0.index t (1 : Fin 2) * 64 + 1 * k.val = k.val; omega
  have hμ : ∀ k : Fin 64, iblk m c 1 t (ix2 (j 1) k) = V m c main_arg1 (ix2 Q k) := fun k => by
    show V m c main_arg1 (((cfg0.win 1).blk t).view.emb (ix2 (j 1) k)) = _
    refine congrArg (V m c main_arg1) (funext fun a => Fin.ext ?_)
    match a with
    | ⟨0, _⟩ => show win0_1.index t (0 : Fin 2) * 64 + 1 * (j 1).val = (j 1).val; omega
    | ⟨1, _⟩ => show win0_1.index t (1 : Fin 2) * 64 + 1 * k.val = k.val; omega
  have ho : iblk m c 2 t (ix2 (0 : Fin 1) (j 1)) = V m c main_v18 (ix2 (0 : Fin 1) Q) := by
    show V m c main_v18 (((cfg0.win 2).blk t).view.emb (ix2 (0 : Fin 1) (j 1))) = _
    refine congrArg (V m c main_v18) (funext fun a => Fin.ext ?_)
    match a with
    | ⟨0, _⟩ => show win0_2.index t (0 : Fin 2) * 1 + 1 * 0 = 0; omega
    | ⟨1, _⟩ => show win0_2.index t (1 : Fin 2) * 64 + 1 * (j 1).val = (j 1).val; omega
  have hv : iblk m c 3 t (ix2 (0 : Fin 1) (0 : Fin 1)) = V m c main_v19 (ix2 (0 : Fin 1) (0 : Fin 1)) := by
    show V m c main_v19 (((cfg0.win 3).blk t).view.emb (ix2 (0 : Fin 1) (0 : Fin 1))) = _
    refine congrArg (V m c main_v19) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  rw [ho, hv]
  simp only [hz, hμ]

/-- An index of the result is in point `t`'s block iff each coordinate is in the block's range on its axis. -/
theorem mem_block (t : Fin cfg0.N) (i : S1048576x64.Idx) :
    i ∈ ((cfg0.win 4).blk t).view.set
      ↔ ∀ a : Fin 2, win0_4.index t a * S8192x64.size a ≤ (i a).val ∧ (i a).val < win0_4.index t a * S8192x64.size a + S8192x64.size a := by
  show i ∈ ((View.whole main_v20).slice (win0_4.rect t)).set ↔ _
  rw [View.set_slice_whole, Rect.mem_set_unit]
  exact Iff.rfl

/-- Row `p` of the result lies in the block of point `p / 8192`: the 128 row blocks cover the array. -/
theorem covered (i : S1048576x64.Idx) :
    ∃ t : Fin cfg0.N, (cfg0.win 4).flush t = true ∧ i ∈ ((cfg0.win 4).blk t).view.set := by
  have hi0 : (i 0).val < 1048576 := (i 0).isLt
  have hi1 : (i 1).val < 64 := (i 1).isLt
  have hN : cfg0.N = 128 := N_0
  have ht : (i 0).val / 8192 < cfg0.N := by omega
  obtain ⟨-, -, -, -, -, -, -, -, e40, e41⟩ := block_indices ⟨(i 0).val / 8192, ht⟩
  refine ⟨⟨(i 0).val / 8192, ht⟩, flush0_4 _, ?_⟩
  rw [mem_block]
  intro a
  match a with
  | ⟨0, _⟩ =>
    show win0_4.index ⟨(i 0).val / 8192, ht⟩ (0 : Fin 2) * 8192 ≤ (i 0).val
      ∧ (i 0).val < win0_4.index ⟨(i 0).val / 8192, ht⟩ (0 : Fin 2) * 8192 + 8192
    have e : win0_4.index ⟨(i 0).val / 8192, ht⟩ (0 : Fin 2) = (i 0).val / 8192 := e40
    omega
  | ⟨1, _⟩ =>
    show win0_4.index ⟨(i 0).val / 8192, ht⟩ (1 : Fin 2) * 64 ≤ (i 1).val
      ∧ (i 1).val < win0_4.index ⟨(i 0).val / 8192, ht⟩ (1 : Fin 2) * 64 + 64
    omega

/-- THE RESULT ARRAY after the run is `arr` of the operand arrays as the launch finds them. -/
theorem final (c : Dev nD) :
    (dats m 0 c).arrAt 4 cfg0.N = arr (V m c main_arg0) (V m c main_arg1) (V m c main_v18) (V m c main_v19) :=
  (dats m 0 c).arrAt_eq_of_cover 4 _ (fun t _ => flushed_eq m c t) covered

end Cert.Lda.Ker

end
-- ==== Proof.Consts.lean ====
/-
  The float literals the two programs spell, as the extended reals their words denote: one half,
  minus one half, one, two and sixty-four are dyadic, so each word is an exact real.
-/
import Idealize.ShloMosaic.PureOps.Ideal

noncomputable section

namespace Cert.Lda.Consts

open Idealize.ShloMosaic

/-- The word of `0.5`. -/
theorem half : Ideal.ofBits .f32 0x3F000000#32 = (((1 : ℝ) / 2 : ℝ) : EReal) := by
  simp [Ideal.ofBits, Ideal.ieee, -EReal.coe_mul]; norm_num

/-- The word of `-0.5`. -/
theorem negHalf : Ideal.ofBits .f32 0xBF000000#32 = ((-((1 : ℝ) / 2) : ℝ) : EReal) := by
  simp [Ideal.ofBits, Ideal.ieee, -EReal.coe_mul]; norm_num

/-- The word of `1.0`. -/
theorem one : Ideal.ofBits .f32 0x3F800000#32 = ((1 : ℝ) : EReal) := by
  simp [Ideal.ofBits, Ideal.ieee, -EReal.coe_mul]; norm_num

/-- The word of `2.0`. -/
theorem two : Ideal.ofBits .f32 0x40000000#32 = ((2 : ℝ) : EReal) := by
  simp [Ideal.ofBits, Ideal.ieee, -EReal.coe_mul]; norm_num

/-- The word of `64.0`. -/
theorem sixtyFour : Ideal.ofBits .f32 0x42800000#32 = ((64 : ℝ) : EReal) := by
  simp [Ideal.ofBits, Ideal.ieee, -EReal.coe_mul]; norm_num

/-- The word of `+0.0`. -/
theorem zero : Ideal.ofBits .f32 0x00000000#32 = 0 := by
  simp [Ideal.ofBits, Ideal.ieee]

end Cert.Lda.Consts

end
-- ==== Proof.HostTerms.lean ====
/-
  What the kernel's @main computes on the host before the launch and hands to the kernel as its two
  small operands: the `1 × 1` inverse variance `1 / exp c`, and the `1 × 64` offsets
      log-prior_q - 1/2 · (64 c) - (1/2 · ‖μ_q‖²) · (1 / exp c),
  each read at an index from the program's arguments.
-/
import proofs.«177680_j26371099197590_1_alg».proof.Proof.Gen.KernelIdeal.Frame
import proofs.«177680_j26371099197590_1_alg».proof.Proof.Consts
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.Lda.Ker

open Cert.KernelIdeal Cert.KernelIdeal.Gen Idealize.ShloMosaic Idealize.ShloMosaic.TcCoe Idealize.SL.Sem
open Idealize.ShloMosaic.StableHlo Idealize.ShloMosaic.ValueIdx

/-! ## The host terms -/

/-- The row maximum the log-softmax subtracts, spread back over the 64 classes. -/
def priorMax (x : FVec Ideal S64 .f32) : FVec Ideal S64 .f32 :=
  broadcastInDim S64 ![0] bcast_S1_S64_0 (broadcastInDim S1 ![] bcast_S_S1
    (maximumf (constant (F := Ideal) S_ .f32 0xFF800000#32)
      (Host.reduce FloatOps.maximumf x (constant (F := Ideal) S_ .f32 0xFF800000#32) reducesTo_S64_S_d0 h_S_)))

/-- jax's `log_softmax` of the prior logits: the shifted logits minus the log of the sum of their exponentials. -/
def logPrior (x : FVec Ideal S64 .f32) : FVec Ideal S64 .f32 :=
  subf (subf x (priorMax x))
    (broadcastInDim S64 ![0] bcast_S1_S64_0 (Host.log (broadcastInDim S1 ![] bcast_S_S1
      (Host.reduceAdd (Host.exp (subf x (priorMax x))) (constant (F := Ideal) S_ .f32 0x00000000#32) reducesTo_S64_S_d0 h_S_))))

/-- The inverse variance `1 / exp c`, a one-element vector. -/
def invVar (c : FVec Ideal S1 .f32) : FVec Ideal S1 .f32 :=
  Host.divf (broadcastInDim S1 ![] bcast_S_S1 (constant (F := Ideal) S_ .f32 0x3F800000#32)) (Host.exp c)

/-- The per-class offsets. -/
def offsets (x : FVec Ideal S64 .f32) (μ : FVec Ideal S64x64 .f32) (c : FVec Ideal S1 .f32) : FVec Ideal S64 .f32 :=
  subf
    (subf (logPrior x)
      (broadcastInDim S64 ![] bcast_S_S64
        (mulf (constant (F := Ideal) S_ .f32 0x3F000000#32)
          (shapeCast S_ (mulf (broadcastInDim S1 ![] bcast_S_S1 (constant (F := Ideal) S_ .f32 0x42800000#32)) c) shapeCasts_S1_S_))))
    (mulf
      (mulf (broadcastInDim S64 ![] bcast_S_S64 (constant (F := Ideal) S_ .f32 0x3F000000#32))
        (Host.reduceAdd (mulf μ μ) (constant (F := Ideal) S_ .f32 0x00000000#32) reducesTo_S64x64_S64_d1 h_S_))
      (broadcastInDim S64 ![] bcast_S_S64 (shapeCast S_ (invVar c) shapeCasts_S1_S_)))

variable (m : (ℓ : Loc nD τ sig) → Buf (Elt Ideal) ℓ)

/-- The launch finds the inverse variance, reshaped to `1 × 1`, in the kernel's fourth operand. -/
theorem V_invVar (c : Dev nD) :
    (V m c main_v19 : S1x1.Idx → EReal) = shapeCast S1x1 (invVar (m ((c : Thread nD τ).loc main_arg2))) shapeCasts_S1_S1x1 := by
  dsimp only [V]
  simp only [hostOps0, hostOps0_1, List.flatten_cons, List.flatten_nil, List.append_nil, List.cons_append, List.nil_append]
  after_results_simp
  rfl

set_option maxRecDepth 8192 in
set_option maxHeartbeats 2000000 in
/-- The launch finds the offsets, reshaped to `1 × 64`, in the kernel's third operand. -/
theorem V_offsets (c : Dev nD) :
    (V m c main_v18 : S1x64.Idx → EReal)
      = shapeCast S1x64 (offsets (m ((c : Thread nD τ).loc main_arg3)) (m ((c : Thread nD τ).loc main_arg1)) (m ((c : Thread nD τ).loc main_arg2))) shapeCasts_S64_S1x64 := by
  dsimp only [V]
  simp only [hostOps0, hostOps0_1, List.flatten_cons, List.flatten_nil, List.append_nil, List.cons_append, List.nil_append]
  after_results_simp
  unfold offsets logPrior priorMax invVar
  simp only [cast_eq]
  rfl

end Cert.Lda.Ker

end
-- ==== Proof.HostAt.lean ====
/-
  The two small operands the host hands the kernel, read at an index: the inverse variance is
  `1 / exp c`, and the offset of class `q` is the log-prior of `q` minus `1/2 · (64 c)` minus
  `(1/2 · ‖μ_q‖²) · (1 / exp c)`, the squared norm a sum over the 64 features from zero.
-/
import proofs.«177680_j26371099197590_1_alg».proof.Proof.HostTerms

noncomputable section

namespace Cert.Lda.Ker

open Cert.KernelIdeal Cert.KernelIdeal.Gen Idealize.ShloMosaic Idealize.ShloMosaic.ValueIdx

/-- A scalar broadcast to any shape reads the scalar everywhere. -/
theorem bcast_scalar {α : Type} {t : Shape} (h : S_.BroadcastsInDim t (![] : Fin 0 → Fin t.rank)) (s : S_.Idx → α) (j : t.Idx) :
    broadcastInDim t ![] h s j = s ix0 :=
  broadcastInDim_apply _ h s j ix0 (fun a => a.elim0)

/-- A one-element vector reshaped to a scalar reads its element. -/
theorem cast_scalar {α : Type} (y : S1.Idx → α) (h : S1.ShapeCasts S_) (j : S_.Idx) :
    shapeCast S_ y h j = y (ix1 (0 : Fin 1)) :=
  shapeCast_apply y h j (ix1 (0 : Fin 1)) (by
    rw [Shape.rowMajor_val_one]
    have hlt := (Shape.rowMajor S_ j).isLt
    have hn : S_.numel = 1 := by decide
    show (0 : ℕ) = _
    omega)

/-- The inverse variance at its one index. -/
theorem invVar_apply (c : FVec Ideal S1 .f32) (u : Fin 1) :
    invVar c (ix1 u) = Ideal.div (Ideal.ofBits .f32 0x3F800000#32) (Ideal.exp (c (ix1 u))) := by
  unfold invVar
  show FloatOps.hostDivf (broadcastInDim S1 ![] bcast_S_S1 (constant (F := Ideal) S_ .f32 0x3F800000#32) (ix1 u))
    (FloatOps.hostUnary .exp (c (ix1 u))) = _
  rw [bcast_scalar]
  rfl

/-- The kernel's fourth operand at its one index. -/
theorem invVar_at (c : FVec Ideal S1 .f32) :
    shapeCast S1x1 (invVar c) shapeCasts_S1_S1x1 (ix2 (0 : Fin 1) (0 : Fin 1))
      = Ideal.div (Ideal.ofBits .f32 0x3F800000#32) (Ideal.exp (c (ix1 (0 : Fin 1)))) := by
  rw [shapeCast_a_1a_apply, invVar_apply]

/-- The squared norm of mean `q`, as the host sums it from zero. -/
theorem mean_sq (μ : FVec Ideal S64x64 .f32) (q : Fin 64) :
    Host.reduceAdd (mulf μ μ) (constant (F := Ideal) S_ .f32 0x00000000#32) reducesTo_S64x64_S64_d1 h_S_ (ix1 q)
      = ∑ k : Fin 64, μ (ix2 q k) * μ (ix2 q k) := by
  simp only [Host.reduceAdd, Ideal.hostReduceAdd_def]
  rw [Ideal.hostReduceAdd_single reducesTo_S64x64_S64_d1 (by decide)]
  show Ideal.ofBits .f32 0x00000000#32 + _ = _
  rw [Consts.zero, zero_add]
  refine Finset.sum_congr rfl fun k _ => ?_
  have e : (show S64x64.Reduces [1] S64 by decide).lift (ix1 q) k = ix2 q k :=
    funext fun a => Fin.ext (by match a with | ⟨0, _⟩ => rfl | ⟨1, _⟩ => rfl)
  rw [e]
  rfl

/-- The kernel's third operand at class `q`. -/
theorem offsets_at (x : FVec Ideal S64 .f32) (μ : FVec Ideal S64x64 .f32) (c : FVec Ideal S1 .f32) (q : Fin 64) :
    shapeCast S1x64 (offsets x μ c) shapeCasts_S64_S1x64 (ix2 (0 : Fin 1) q)
      = (logPrior x (ix1 q)
          - Ideal.ofBits .f32 0x3F000000#32 * (Ideal.ofBits .f32 0x42800000#32 * c (ix1 (0 : Fin 1))))
        - (Ideal.ofBits .f32 0x3F000000#32 * ∑ k : Fin 64, μ (ix2 q k) * μ (ix2 q k))
          * Ideal.div (Ideal.ofBits .f32 0x3F800000#32) (Ideal.exp (c (ix1 (0 : Fin 1)))) := by
  rw [shapeCast_a_1a_apply]
  unfold offsets
  rw [subf_apply, subf_apply, mulf_apply, mulf_apply, bcast_scalar, bcast_scalar, bcast_scalar, mulf_apply, cast_scalar,
    cast_scalar, mulf_apply, bcast_scalar, invVar_apply, mean_sq]
  rfl

end Cert.Lda.Ker

end
-- ==== Proof.RefAt.lean ====
/-
  The reference read at one output element `(p, q)`: the log-prior of column `q` minus one half of
  `(‖z_p‖² - 2 ⟨z_p, μ_q⟩ + ‖μ_q‖²) / exp c + 64 c`, each inner product a sum over the 64 features.
-/
import proofs.«177680_j26371099197590_1_alg».proof.Proof.Gen.ReferenceIdeal.Read
import proofs.«177680_j26371099197590_1_alg».proof.Proof.Consts
import Idealize.ShloMosaic.Lib.ValueIdx
import Idealize.ShloMosaic.PureOps.Ideal.Laws

noncomputable section

namespace Cert.Lda.Ref

open Cert.ReferenceIdeal Cert.ReferenceIdeal.Gen Cert.ReferenceIdeal.Read Idealize.ShloMosaic Idealize.ShloMosaic.ValueIdx

variable (p : Fin 1048576) (q : Fin 64)

theorem idx_prior : idx_main_v17 (idx_main_v26 (ix2 p q)) = ix1 q :=
  funext fun a => Fin.ext (by match a with | ⟨0, _⟩ => rfl)

theorem idx_zz (k : Fin 64) : idx_main_v1 (idx_main_v2 (idx_main_v8 (ix2 p q))) k = ix2 p k :=
  funext fun a => Fin.ext (by match a with | ⟨0, _⟩ => rfl | ⟨1, _⟩ => rfl)

theorem idx_zm_l (k : Fin 64) : lidx_main_v5 (ix2 p q) k = ix2 p k :=
  funext fun a => Fin.ext (by match a with | ⟨0, _⟩ => rfl | ⟨1, _⟩ => rfl)

theorem idx_zm_r (k : Fin 64) : ridx_main_v5 (ix2 p q) k = ix2 q k :=
  funext fun a => Fin.ext (by match a with | ⟨0, _⟩ => rfl | ⟨1, _⟩ => rfl)

theorem idx_mm (k : Fin 64) : idx_main_v4 (idx_main_v10 (idx_main_v11 (ix2 p q))) k = ix2 q k :=
  funext fun a => Fin.ext (by match a with | ⟨0, _⟩ => rfl | ⟨1, _⟩ => rfl)

theorem idx_var : idx_main_v18 (idx_main_v19 (ix2 p q)) = ix1 (0 : Fin 1) :=
  funext fun a => Fin.ext (by match a with | ⟨0, _⟩ => rfl)

theorem idx_logdet : idx_main_v21 (idx_main_v22 (ix2 p q)) = ix1 (0 : Fin 1) :=
  funext fun a => Fin.ext (by match a with | ⟨0, _⟩ => rfl)

/-- The reference's result at `(p, q)`. -/
theorem ref_at (x0 : FVec Ideal S1048576x64 .f32) (x1 : FVec Ideal S64x64 .f32) (x2 : FVec Ideal S1 .f32) (x3 : FVec Ideal S64 .f32) :
    val_main_v27 (F := Ideal) x0 x1 x2 x3 (ix2 p q)
      = val_main_v16 (F := Ideal) x3 (ix1 q)
        - Ideal.ofBits .f32 0x3F000000#32
          * (Ideal.div (((∑ k : Fin 64, x0 (ix2 p k) * x0 (ix2 p k))
                - Ideal.ofBits .f32 0x40000000#32 * ∑ k : Fin 64, x0 (ix2 p k) * x1 (ix2 q k))
              + ∑ k : Fin 64, x1 (ix2 q k) * x1 (ix2 q k)) (Ideal.exp (x2 (ix1 (0 : Fin 1))))
            + Ideal.ofBits .f32 0x42800000#32 * x2 (ix1 (0 : Fin 1))) := by
  rw [val_main_v27_apply, val_main_v26_apply, val_main_v17_apply, val_main_v25_apply, val_main_v24_apply, val_main_cst_3_apply,
    val_main_v23_apply, val_main_v20_apply, val_main_v12_apply, val_main_v9_apply, val_main_v8_apply, val_main_v2_apply,
    val_main_v1_apply, val_main_v7_apply, val_main_v6_apply, val_main_cst_1_apply, val_main_v5_apply, val_main_v11_apply,
    val_main_v10_apply, val_main_v4_apply, val_main_v19_apply, val_main_v18_apply, val_main_v13_apply, val_main_v22_apply,
    val_main_v21_apply, val_main_v15_apply, val_main_v14_apply, val_main_cst_2_apply, val_main_cst_apply, val_main_cst_0_apply]
  simp only [val_main_v0_apply, val_main_v3_apply, idx_prior, idx_zz, idx_zm_l, idx_zm_r, idx_mm, idx_var, idx_logdet,
    Ideal.ofBits_def, Ideal.mulf_def, Ideal.addf_def, Ideal.subf_def, Ideal.hostDivf_def, Ideal.hostUnary_exp_def,
    Consts.zero, zero_add]

end Cert.Lda.Ref

end
-- ==== Proof.Algebra.lean ====
/-
  The one algebraic law that joins the two programs, on the extended reals.

  With `e = exp c > 0` the kernel adds to the log-prior `L` the four real terms
      - 1/2 · (64 c)  -  (1/2 · ‖μ‖²) · (1/e)  +  (-1/2 · (1/e)) · ‖z‖²  +  (1/e) · ⟨z, μ⟩
  one after the other, and the reference subtracts from `L` the single real term
      1/2 · ((‖z‖² - 2 ⟨z, μ⟩ + ‖μ‖²) / e + 64 c).
  The four terms sum to minus that one (expand the square, divide by `e`), and adding reals to an
  extended real associates whatever `L` is; so the two results agree at every `L`, infinite or not.
-/
import proofs.«177680_j26371099197590_1_alg».proof.Proof.Consts
import Idealize.ShloMosaic.PureOps.Ideal.Laws

noncomputable section

namespace Cert.Lda

open Idealize.ShloMosaic

/-- The inclusion of the reals in the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting two reals from an extended real and adding two more is subtracting their balance. -/
theorem sub_sub_add_add (L : EReal) (a b c d t : ℝ) (h : -a + (-b + (c + d)) = -t) :
    L - (a : EReal) - (b : EReal) + (c : EReal) + (d : EReal) = L - (t : EReal) := by
  rw [sub_eq_add_neg, sub_eq_add_neg, sub_eq_add_neg, ← EReal.coe_neg, ← EReal.coe_neg, ← EReal.coe_neg,
    add_assoc, add_assoc, add_assoc, ← EReal.coe_add, ← EReal.coe_add, ← EReal.coe_add, h]

/-- THE LAW at one output element: `L` the log-prior of the column (any extended real), `c` the
    log-variance, `zz`, `zm`, `mm` the three inner products, all real. -/
theorem point_law (L : EReal) (c zz zm mm : ℝ) :
    (L - Ideal.ofBits .f32 0x3F000000#32 * (Ideal.ofBits .f32 0x42800000#32 * (c : EReal))
        - (Ideal.ofBits .f32 0x3F000000#32 * (mm : EReal)) * Ideal.div (Ideal.ofBits .f32 0x3F800000#32) (Ideal.exp (c : EReal))
      + (Ideal.ofBits .f32 0xBF000000#32 * Ideal.div (Ideal.ofBits .f32 0x3F800000#32) (Ideal.exp (c : EReal))) * (zz : EReal))
      + Ideal.div (Ideal.ofBits .f32 0x3F800000#32) (Ideal.exp (c : EReal)) * (zm : EReal)
    = L - Ideal.ofBits .f32 0x3F000000#32
        * (Ideal.div (((zz : EReal) - Ideal.ofBits .f32 0x40000000#32 * (zm : EReal)) + (mm : EReal)) (Ideal.exp (c : EReal))
            + Ideal.ofBits .f32 0x42800000#32 * (c : EReal)) := by
  have he : Real.exp c ≠ 0 := (Real.exp_pos c).ne'
  rw [Consts.half, Consts.negHalf, Consts.one, Consts.two, Consts.sixtyFour, Ideal.exp_coe,
    Ideal.div_coe he, Ideal.div_coe he]
  simp only [← EReal.coe_mul, ← EReal.coe_add, ← EReal.coe_sub]
  refine sub_sub_add_add L _ _ _ _ _ ?_
  field_simp
  ring

end Cert.Lda

end
-- ==== Proof.Finite.lean ====
/-
  What the precondition gives: each `jnp.all(|x| < +inf)` of the printed predicate says that every
  entry of that input lies strictly between the two infinities, so it is a real number.
-/
import proofs.«177680_j26371099197590_1_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Lda

open Idealize.ShloMosaic

/-- The result of a reduction over every axis has one index. -/
instance subsingleton_scalar_idx : Subsingleton Cert.Pre_finite_inputs.S_.Idx :=
  ⟨fun a b => funext fun d => d.elim0⟩

/-- An extended real whose absolute value compares below the word of `+inf` is a real. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  induction x using EReal.rec with
  | bot => exfalso; revert h; simp [Ideal.cmpf_def, Ideal.absf_def, Ideal.cmp, Ideal.ofBits, Ideal.ieee]
  | top => exfalso; revert h; simp [Ideal.cmpf_def, Ideal.absf_def, Ideal.cmp, Ideal.ofBits, Ideal.ieee]
  | coe r => exact ⟨r, rfl⟩

variable [Cert.Pre_finite_inputs.Facts]

/-- Under the precondition the entries of `z`, of `μ` and of the log-variance are reals. (So are
    the prior logits; the law does not need it.) -/
theorem reals_of_pre (a0 : FVec Ideal Cert.Pre_finite_inputs.S1048576x64 .f32) (a1 : FVec Ideal Cert.Pre_finite_inputs.S64x64 .f32)
    (a2 : FVec Ideal Cert.Pre_finite_inputs.S1 .f32) (a3 : FVec Ideal Cert.Pre_finite_inputs.S64 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [Cert.Pre_finite_inputs.fn, Cert.Pre_finite_inputs.fn_part1, andi] at h0
  obtain ⟨h13, -⟩ := IntOp.andi_eq_one.1 h0
  obtain ⟨h8, h12⟩ := IntOp.andi_eq_one.1 h13
  obtain ⟨h3, h7⟩ := IntOp.andi_eq_one.1 h8
  refine ⟨fun i => ?_, fun i => ?_, fun i => ?_⟩
  · exact real_of_abs_lt_inf _ (Host.reduce_andi_all _ _ _ _ _ h3 i)
  · exact real_of_abs_lt_inf _ (Host.reduce_andi_all _ _ _ _ _ h7 i)
  · exact real_of_abs_lt_inf _ (Host.reduce_andi_all _ _ _ _ _ h12 i)

end Cert.Lda

end
-- ==== Proof.Bridge.lean ====
/-
  The two programs compute one function. At output element `(p, q)` the kernel holds
      offset_q + (-1/2 · v) · ‖z_p‖² + v · ⟨z_p, μ_q⟩,   v = 1 / exp c,
      offset_q = log-prior_q - 1/2 · (64 c) - (1/2 · ‖μ_q‖²) · v,
  and the reference holds
      log-prior_q - 1/2 · ((‖z_p‖² - 2 ⟨z_p, μ_q⟩ + ‖μ_q‖²) / exp c + 64 c).
  Both programs spell the log-prior by the same operations, so it is one extended real `L` on both
  sides; under the precondition `z`, `μ` and `c` are real, the three inner products are real sums,
  and the law of `Algebra.lean` closes the element.
-/
import proofs.«177680_j26371099197590_1_alg».proof.Proof.KernelArr
import proofs.«177680_j26371099197590_1_alg».proof.Proof.HostAt
import proofs.«177680_j26371099197590_1_alg».proof.Proof.RefAt
import proofs.«177680_j26371099197590_1_alg».proof.Proof.Algebra
import proofs.«177680_j26371099197590_1_alg».proof.Proof.Finite
import proofs.«177680_j26371099197590_1_alg».proof.Proof.Gen.Pre_finite_inputs

noncomputable section

namespace Cert.Lda

open Idealize.ShloMosaic Idealize.ShloMosaic.ValueIdx

/-- The kernel's @main and the reference spell the log-prior by the same fourteen operations. -/
theorem logPrior_eq (x : FVec Ideal Cert.KernelIdeal.S64 .f32) :
    Ker.logPrior x = Cert.ReferenceIdeal.Read.val_main_v16 (F := Ideal) x := rfl

/-- THE BRIDGE: under the precondition, the kernel's result array — `arr` of `z`, `μ` and the two host-made
    operands — is the reference's result, element by element. -/
theorem result_eq (a0 : FVec Ideal Cert.KernelIdeal.S1048576x64 .f32) (a1 : FVec Ideal Cert.KernelIdeal.S64x64 .f32)
    (a2 : FVec Ideal Cert.KernelIdeal.S1 .f32) (a3 : FVec Ideal Cert.KernelIdeal.S64 .f32)
    (hpre : Cert.Pre_finite_inputs.fn (F := Ideal) a0 a1 a2 a3 = fun _ => 1#1) :
    Ker.arr a0 a1 (shapeCast Cert.KernelIdeal.S1x64 (Ker.offsets a3 a1 a2) Cert.KernelIdeal.Gen.shapeCasts_S64_S1x64)
        (shapeCast Cert.KernelIdeal.S1x1 (Ker.invVar a2) Cert.KernelIdeal.Gen.shapeCasts_S1_S1x1)
      = Cert.ReferenceIdeal.Read.val_main_v27 (F := Ideal) a0 a1 a2 a3 := by
  obtain ⟨h0, h1, h2⟩ := reals_of_pre a0 a1 a2 a3 hpre
  choose zr hzr using h0
  choose mr hmr using h1
  obtain ⟨cr, hcr⟩ := h2 (ix1 (0 : Fin 1))
  funext i
  obtain ⟨p, q, rfl⟩ : ∃ (p : Fin 1048576) (q : Fin 64), i = ix2 p q := ⟨i 0, i 1, eq_ix2 i⟩
  rw [Ref.ref_at]
  show Ker.cell a0 a1 _ _ p q = _
  unfold Ker.cell
  rw [Ker.offsets_at, Ker.invVar_at, logPrior_eq]
  simp only [hzr, hmr, hcr, ← EReal.coe_mul, ← coe_sum]
  exact point_law _ cr _ _ _

end Cert.Lda

end
-- ==== Proof.lean ====
/-
  The certificate of a Gaussian class-score kernel against its plain reference, over the extended reals.

  Both programs score each of 1,048,576 rows `z_p` against 64 class means `μ_q` with a shared
  spherical variance `exp c` and a log-softmax prior:
      score(p, q) = log-prior_q - 1/2 · (‖z_p - μ_q‖² / exp c + 64 c),
  the squared distance expanded as `‖z_p‖² - 2 ⟨z_p, μ_q⟩ + ‖μ_q‖²`. The reference evaluates this as
  written. The kernel folds everything that does not depend on the row into a per-class offset and
  the inverse variance on the host, and per block of 8192 rows computes
      offset_q + (-1/2 / exp c) · ‖z_p‖² + (1 / exp c) · ⟨z_p, μ_q⟩.
  The frames are the generated ones (the reference's is its generated run with the result dropped);
  the idealization rewrote nothing, so `preserves` is trivial; `algebraic` sets the kernel's result
  array (`KernelArr.lean`, over the generated blockwise value leg, with the host-made operands of
  `HostTerms.lean` / `HostAt.lean`) beside the reference's generated run (`RefAt.lean`) and joins
  them by `Bridge.lean`: the precondition makes `z`, `μ` and `c` real, and then the two expressions
  differ by expanding a product over a sum of reals (`Algebra.lean`).
-/
import proofs.«177680_j26371099197590_1_alg».proof.Defs
import proofs.«177680_j26371099197590_1_alg».proof.Proof.Gen.Kernel
import proofs.«177680_j26371099197590_1_alg».proof.Proof.Gen.Kernel.Skeleton
import proofs.«177680_j26371099197590_1_alg».proof.Proof.Gen.Kernel.Launch
import proofs.«177680_j26371099197590_1_alg».proof.Proof.Gen.Kernel.Points
import proofs.«177680_j26371099197590_1_alg».proof.Proof.Gen.Kernel.Frame
import proofs.«177680_j26371099197590_1_alg».proof.Proof.Gen.KernelIdeal
import proofs.«177680_j26371099197590_1_alg».proof.Proof.Gen.KernelIdeal.Skeleton
import proofs.«177680_j26371099197590_1_alg».proof.Proof.Gen.KernelIdeal.Launch
import proofs.«177680_j26371099197590_1_alg».proof.Proof.Gen.KernelIdeal.Points
import proofs.«177680_j26371099197590_1_alg».proof.Proof.Gen.KernelIdeal.Frame
import proofs.«177680_j26371099197590_1_alg».proof.Proof.Gen.ReferenceIdeal
import proofs.«177680_j26371099197590_1_alg».proof.Proof.Gen.Pre_finite_inputs
import proofs.«177680_j26371099197590_1_alg».proof.Proof.Gen.KernelIdeal.Value
import proofs.«177680_j26371099197590_1_alg».proof.Proof.Gen.ReferenceIdeal.Run
import proofs.«177680_j26371099197590_1_alg».proof.Proof.Gen.ReferenceIdeal.Read
import proofs.«177680_j26371099197590_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the reference's term of the
    kernel-side arguments in their result arrays: the kernel by its blocks, the host-made operands and
    the bridge; the reference by its run, with the agreement rewritten. -/
theorem algebraic : Cert.algebraic_KernelIdeal_ReferenceIdeal := by
  intro m ρ m' ρ' hpre hagree
  refine ⟨fun c => Cert.ReferenceIdeal.Read.val_main_v27 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩)
      (Cert.KernelIdeal.Value.run_blocks m ρ)
    rw [Cert.Lda.Ker.final, Cert.Lda.Ker.V_offsets, Cert.Lda.Ker.V_invVar, Cert.KernelIdeal.Gen.V_main_arg0,
      Cert.KernelIdeal.Gen.V_main_arg1]
    exact Cert.Lda.result_eq _ _ _ _ (hpre c)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v27_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
